-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x128x3 : Shape := ⟨4, ![128, 128, 128, 3]⟩
abbrev S16x128x128x3 : Shape := ⟨4, ![16, 128, 128, 3]⟩
abbrev S_ : Shape := ⟨0, ![]⟩

class Facts : Prop where
  bcast_S_S128x128x128x3 : S_.BroadcastsInDim S128x128x128x3 (![] : Fin 0 → Fin S128x128x128x3.rank)
  reducesTo_S128x128x128x3_S_d0_1_2_3 : S128x128x128x3.ReducesTo [0, 1, 2, 3] S_
  h_S_ : 0 < S_.numel
  bcast_S_S16x128x128x3 : S_.BroadcastsInDim S16x128x128x3 (![] : Fin 0 → Fin S16x128x128x3.rank)
  reducesTo_S16x128x128x3_S_d0_1_2_3 : S16x128x128x3.ReducesTo [0, 1, 2, 3] S_

variable [Facts]

def fn {F : FTy → Type} [FloatOps F] (main_arg0 : FVec F S128x128x128x3 .f32) (main_arg1 : FVec F S16x128x128x3 .f32) : IVec S_ 1 :=
  let main_v0 : FVec F S128x128x128x3 .f32 := Host.absf main_arg0
  let main_cst : FVec F S_ .f32 := constant S_ .f32 0x7F800000#32
  let main_v1 : FVec F S128x128x128x3 .f32 := broadcastInDim S128x128x128x3 ![] bcast_S_S128x128x128x3 main_cst
  let main_v2 : IVec S128x128x128x3 1 := cmpf .olt main_v0 main_v1
  let main_c : IVec S_ 1 := constantI S_ 1 1#1
  let main_v3 : IVec S_ 1 := (fun x v => Host.reduce IntOp.andi x v reducesTo_S128x128x128x3_S_d0_1_2_3 h_S_) main_v2 main_c
  let main_v4 : FVec F S16x128x128x3 .f32 := Host.absf main_arg1
  let main_cst_0 : FVec F S_ .f32 := constant S_ .f32 0x7F800000#32
  let main_v5 : FVec F S16x128x128x3 .f32 := broadcastInDim S16x128x128x3 ![] bcast_S_S16x128x128x3 main_cst_0
  let main_v6 : IVec S16x128x128x3 1 := cmpf .olt main_v4 main_v5
  let main_c_1 : IVec S_ 1 := constantI S_ 1 1#1
  let main_v7 : IVec S_ 1 := (fun x v => Host.reduce IntOp.andi x v reducesTo_S16x128x128x3_S_d0_1_2_3 h_S_) main_v6 main_c_1
  let main_v8 : IVec S_ 1 := andi main_v3 main_v7
  main_v8
-- ==== Kernel.lean ====
abbrev S128x128x128x3 : Shape := ⟨4, ![128, 128, 128, 3]⟩
abbrev S16x128x128x3 : Shape := ⟨4, ![16, 128, 128, 3]⟩
abbrev S144x128x128x3 : Shape := ⟨4, ![144, 128, 128, 3]⟩
abbrev S144x128x384 : Shape := ⟨3, ![144, 128, 384]⟩
abbrev S128x16x128x384 : Shape := ⟨4, ![128, 16, 128, 384]⟩
abbrev S1x16x128x384 : Shape := ⟨4, ![1, 16, 128, 384]⟩
abbrev S16x128x384 : Shape := ⟨3, ![16, 128, 384]⟩
abbrev S128x16x128x128x3 : Shape := ⟨5, ![128, 16, 128, 128, 3]⟩

abbrev nBuf : Space → Nat
  | .hbm => 6
  | .vmem => 3
  | .smem => 0
  | _ => 0

abbrev bufTy : (tb : Table) → Fin (tcTables nBuf tb) → BufTy
  | .hbm, ⟨0, _⟩ => ⟨S128x128x128x3, .f32⟩
  | .hbm, ⟨1, _⟩ => ⟨S16x128x128x3, .f32⟩
  | .hbm, ⟨2, _⟩ => ⟨S144x128x128x3, .f32⟩
  | .hbm, ⟨3, _⟩ => ⟨S144x128x384, .f32⟩
  | .hbm, ⟨4, _⟩ => ⟨S128x16x128x384, .f32⟩
  | .hbm, ⟨5, _⟩ => ⟨S128x16x128x128x3, .f32⟩
  | .local _ .vmem, ⟨0, _⟩ => ⟨S144x128x384, .f32⟩
  | .local _ .vmem, ⟨1, _⟩ => ⟨S1x16x128x384, .f32⟩
  | .local _ .vmem, ⟨2, _⟩ => ⟨S1x16x128x384, .f32⟩
  | _, _ => ⟨S128x128x128x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![128], ![false]⟩

def k0_off1 (i : grid0.Coords) : Fin 3 → Nat :=
  let arg0 : BitVec 32 := BitVec.ofNat 32 (i 0).val
  let c1_i32 : BitVec 32 := 1#32
  let v0 : BitVec 32 := Scalar.addi arg0 c1_i32
  let v1 : Index := Scalar.indexCast v0
  let c0 : Index := 0#32
  let c0_0 : Index := 0#32
  ![v1.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S144x128x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  concatenates_S16x128x128x3_S128x128x128x3_S144x128x128x3_d0 : Shape.Concatenates [S16x128x128x3, S128x128x128x3] S144x128x128x3 0
  shapeCasts_S144x128x128x3_S144x128x384 : S144x128x128x3.ShapeCasts S144x128x384
  h_S16x128x384 : 0 < S16x128x384.numel
  shapeCasts_S16x128x384_S16x128x384 : S16x128x384.ShapeCasts S16x128x384
  inb_S1x16x128x384_S1x16x128x384_0_0_0_0 : ∀ a, (![0, 0, 0, 0] : Fin 4 → Nat) a + S1x16x128x384.size a ≤ S1x16x128x384.size a
  h_S1x16x128x384 : 0 < S1x16x128x384.numel
  shapeCasts_S1x16x128x384_S16x128x384 : S1x16x128x384.ShapeCasts S16x128x384
  shapeCasts_S16x128x384_S1x16x128x384 : S16x128x384.ShapeCasts S1x16x128x384
  shapeCasts_S128x16x128x384_S128x16x128x128x3 : S128x16x128x384.ShapeCasts S128x16x128x128x3
  hrank0 : 0 < grid0.rank
  k0_off1_inb : ∀ i : grid0.Coords, ∀ a, (k0_off1 i) a + S16x128x384.size a ≤ S144x128x384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S144x128x384.size a ≤ S144x128x384.size a
  hwx0_0 : ∀ i : grid0.Coords, EltTy.bits .f32 = 32 ∨ (Rect.block (s := S144x128x384) S144x128x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x384.size a ≤ S128x16x128x384.size a
  hwx0_1 : ∀ i : grid0.Coords, EltTy.bits .f32 = 32 ∨ (Rect.block (s := S128x16x128x384) S1x16x128x384.size (cc0_transform_1 i) (hinb0_1 i)).WholeWords (EltTy.packing .f32)

variable [Facts₀]

abbrev win0_0 : Pipeline.Window sig grid0 :=
  Pipeline.Window.ofSpec (Memref.whole main_v1) S144x128x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16x128x384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x128x128x3 : Shape := ⟨4, ![128, 128, 128, 3]⟩
abbrev S16x128x128x3 : Shape := ⟨4, ![16, 128, 128, 3]⟩
abbrev S144x128x128x3 : Shape := ⟨4, ![144, 128, 128, 3]⟩
abbrev S128 : Shape := ⟨1, ![128]⟩
abbrev S128x1 : Shape := ⟨2, ![128, 1]⟩
abbrev S_ : Shape := ⟨0, ![]⟩
abbrev S16 : Shape := ⟨1, ![16]⟩
abbrev S1x16 : Shape := ⟨2, ![1, 16]⟩
abbrev S128x16 : Shape := ⟨2, ![128, 16]⟩
abbrev S128x16x1 : Shape := ⟨3, ![128, 16, 1]⟩
abbrev S128x16x128x128x3 : Shape := ⟨5, ![128, 16, 128, 128, 3]⟩

abbrev nBuf : Space → Nat
  | .hbm => 22
  | .vmem => 0
  | .smem => 0
  | _ => 0

abbrev bufTy : (tb : Table) → Fin (tcTables nBuf tb) → BufTy
  | .hbm, ⟨0, _⟩ => ⟨S128x128x128x3, .f32⟩
  | .hbm, ⟨1, _⟩ => ⟨S16x128x128x3, .f32⟩
  | .hbm, ⟨2, _⟩ => ⟨S144x128x128x3, .f32⟩
  | .hbm, ⟨3, _⟩ => ⟨S128, .i32⟩
  | .hbm, ⟨4, _⟩ => ⟨S128x1, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S16, .i32⟩
  | .hbm, ⟨9, _⟩ => ⟨S1x16, .i32⟩
  | .hbm, ⟨10, _⟩ => ⟨S128x16, .i32⟩
  | .hbm, ⟨11, _⟩ => ⟨S128x16, .i32⟩
  | .hbm, ⟨12, _⟩ => ⟨S128x16, .i32⟩
  | .hbm, ⟨13, _⟩ => ⟨S_, .i32⟩
  | .hbm, ⟨14, _⟩ => ⟨S128x16, .i32⟩
  | .hbm, ⟨15, _⟩ => ⟨S128x16, .i1⟩
  | .hbm, ⟨16, _⟩ => ⟨S_, .i32⟩
  | .hbm, ⟨17, _⟩ => ⟨S128x16, .i32⟩
  | .hbm, ⟨18, _⟩ => ⟨S128x16, .i32⟩
  | .hbm, ⟨19, _⟩ => ⟨S128x16, .i32⟩
  | .hbm, ⟨20, _⟩ => ⟨S128x16x1, .i32⟩
  | .hbm, ⟨21, _⟩ => ⟨S128x16x128x128x3, .f32⟩
  | _, _ => ⟨S128x128x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  concatenates_S16x128x128x3_S128x128x128x3_S144x128x128x3_d0 : Shape.Concatenates [S16x128x128x3, S128x128x128x3] S144x128x128x3 0
  bcast_S128_S128x1_0 : S128.BroadcastsInDim S128x1 (![0] : Fin 1 → Fin S128x1.rank)
  bcast_S_S128x1 : S_.BroadcastsInDim S128x1 (![] : Fin 0 → Fin S128x1.rank)
  bcast_S16_S1x16_1 : S16.BroadcastsInDim S1x16 (![1] : Fin 1 → Fin S1x16.rank)
  bcast_S128x1_S128x16_0_1 : S128x1.BroadcastsInDim S128x16 (![0, 1] : Fin 2 → Fin S128x16.rank)
  bcast_S1x16_S128x16_0_1 : S1x16.BroadcastsInDim S128x16 (![0, 1] : Fin 2 → Fin S128x16.rank)
  bcast_S_S128x16 : S_.BroadcastsInDim S128x16 (![] : Fin 0 → Fin S128x16.rank)
  bcast_S128x16_S128x16x1_0_1 : S128x16.BroadcastsInDim S128x16x1 (![0, 1] : Fin 2 → Fin S128x16x1.rank)
  gather_S144x128x128x3_S128x16x1_S128x16x128x128x3_234_0_n_n_0_2_11281283_wf : GatherDims.WF S144x128x128x3 S128x16x1 S128x16x128x128x3 [2, 3, 4] [0] [] [0] [] 2 ![1, 128, 128, 3]

variable [Facts₀]

def gather_S144x128x128x3_S128x16x1_S128x16x128x128x3_234_0_n_n_0_2_11281283 : GatherDims S144x128x128x3 S128x16x1 S128x16x128x128x3 where
  offsetDims := [2, 3, 4]
  collapsedSliceDims := [0]
  operandBatchingDims := []
  startIndicesBatchingDims := []
  startIndexMap := [0]
  indexVectorDim := 2
  sliceSizes := ![1, 128, 128, 3]
  wf := gather_S144x128x128x3_S128x16x1_S128x16x128x128x3_234_0_n_n_0_2_11281283_wf

class Facts : Prop extends Facts₀ where

variable [Facts]
-- ==== Proof.Sliding.lean ====
/-
  A sliding window over stacked frames, as one function of the stack.

  The stack `x` has 144 frames of 128 × 128 × 3 values: the 16 frames of the initial buffer followed by the 128
  input frames. Window `i` (of 128) holds the 16 consecutive frames `i + 1, …, i + 16`, so entry `(i, k, h, w, c)` of the
  result is `x (i + 1 + k, h, w, c)` (`slide`). Nothing is computed: every result entry is one entry of the stack.

  Two programs arrive at `slide` by different roads, and this module reads each road at an index, over any value type:
  * through a lane-dense view: the stack re-laid as 144 × 128 × 384 (the last two axes merged, `q = 3 w + c`), a window
    cut out of it frame by frame, and the 128 × 16 × 128 × 384 result re-laid with the last axis split again
    (`relaid_windows`): the two re-layings cancel because both keep the row-major position;
  * through a gather whose start indices are the words `i + 1 + k` (`gather_frames_apply`, `start_word`,
    `start_clamped`): a start index is read as a signed integer and clamped into `[0, 143]`, and `i + 1 + k` lies in
    `[1, 143]`, so neither the wrap-around of a negative index nor the clamp ever acts.
-/
import Idealize.ShloMosaic.Lib.ValueIdx
import Idealize.ShloMosaic.Lib.Pipeline.Value
import Idealize.ShloMosaic.Lib.StableHlo.Predicate

noncomputable section

namespace Cert.Sliding

open Idealize.ShloMosaic Idealize.ShloMosaic.ValueIdx

/-- The stack of frames: 16 buffered frames, then 128 input frames. -/
abbrev Stack : Shape := ⟨4, ![144, 128, 128, 3]⟩
/-- The stack with each frame row lane-dense: width and channel merged. -/
abbrev StackRows : Shape := ⟨3, ![144, 128, 384]⟩
/-- The windows over the lane-dense stack. -/
abbrev WindowRows : Shape := ⟨4, ![128, 16, 128, 384]⟩
/-- The windows: 128 of them, 16 frames each. -/
abbrev Windows : Shape := ⟨5, ![128, 16, 128, 128, 3]⟩
/-- One start index per window and position in it. -/
abbrev Starts : Shape := ⟨3, ![128, 16, 1]⟩

variable {α : Type}

/-- Frame `k` of window `i` is frame `i + 1 + k` of the stack. -/
def frameOf (i : Fin 128) (k : Fin 16) : Fin 144 := ⟨i.val + 1 + k.val, by omega⟩

@[simp] theorem frameOf_val (i : Fin 128) (k : Fin 16) : (frameOf i k).val = i.val + 1 + k.val := rfl

/-- THE SPECIFICATION: entry `(i, k, h, w, c)` of the windows is entry `(i + 1 + k, h, w, c)` of the stack. -/
def slide (x : Stack.Idx → α) : Windows.Idx → α :=
  fun j => x (ix4 (frameOf (j 0) (j 1)) (j 2) (j 3) (j 4))

/-! ## The lane-dense road -/

/-- Window `i` of the lane-dense stack: its 16 frames from `i + 1` on, rows kept whole. -/
def windowRows (r : StackRows.Idx → α) : WindowRows.Idx → α :=
  fun j => r (ix3 (frameOf (j 0) (j 1)) (j 2) (j 3))

/-- The stack re-laid lane-dense, read at `(f, h, 3 w + c)`: the stack at `(f, h, w, c)`. -/
theorem stackRows_apply (x : Stack.Idx → α) (h : Stack.ShapeCasts StackRows) (f : Fin 144) (r : Fin 128) (w : Fin 128) (c : Fin 3) :
    shapeCast StackRows x h (ix3 f r (⟨3 * w.val + c.val, by omega⟩ : Fin 384)) = x (ix4 f r w c) := by
  refine shapeCast_apply x h _ _ ?_
  rw [Shape.rowMajor_val_three, Shape.rowMajor_val_four]
  show ((f.val * 128 + r.val) * 128 + w.val) * 3 + c.val = (f.val * 128 + r.val) * 384 + (3 * w.val + c.val)
  omega

/-- The lane position `3 w + c` of width `w` and channel `c`. -/
def lane (w : Fin 128) (c : Fin 3) : Fin 384 := ⟨3 * w.val + c.val, by omega⟩

/-- The lane-dense windows re-laid with width and channel apart, read at `(i, k, h, w, c)`: the lane-dense windows at
    `(i, k, h, 3 w + c)`. -/
theorem windows_apply (y : WindowRows.Idx → α) (h : WindowRows.ShapeCasts Windows) (j : Windows.Idx) :
    shapeCast Windows y h j = y (ix4 (j 0) (j 1) (j 2) (lane (j 3) (j 4))) := by
  refine shapeCast_apply y h _ _ ?_
  rw [Shape.rowMajor_val_four, Shape.rowMajor_val_five]
  show (((j 0).val * 16 + (j 1).val) * 128 + (j 2).val) * 384 + (3 * (j 3).val + (j 4).val)
      = ((((j 0).val * 16 + (j 1).val) * 128 + (j 2).val) * 128 + (j 3).val) * 3 + (j 4).val
  omega

/-- Merging width and channel, cutting the windows, and splitting width and channel again is `slide`. -/
theorem relaid_windows (x : Stack.Idx → α) (h : Stack.ShapeCasts StackRows) (h' : WindowRows.ShapeCasts Windows) :
    shapeCast Windows (windowRows (shapeCast StackRows x h)) h' = slide x := by
  funext j
  rw [windows_apply]
  exact stackRows_apply x h (frameOf (j 0) (j 1)) (j 2) (j 3) (j 4)

/-! ## The gather road -/

/-- The dimension numbers of `stack[idx]` for `idx : [128, 16]` (as `[128, 16, 1]`): axis 0 of the stack is indexed and
    collapsed, the frame is the slice. -/
abbrev frameDims (wf : GatherDims.WF Stack Starts Windows [2, 3, 4] [0] [] [0] [] 2 ![1, 128, 128, 3]) :
    GatherDims Stack Starts Windows where
  offsetDims := [2, 3, 4]
  collapsedSliceDims := [0]
  operandBatchingDims := []
  startIndicesBatchingDims := []
  startIndexMap := [0]
  indexVectorDim := 2
  sliceSizes := ![1, 128, 128, 3]
  wf := wf

/-- The start-indices index `(i, k, 0)` of a result index `(i, k, …)`. -/
abbrev startAt (j : Windows.Idx) : Starts.Idx := ix3 (j 0) (j 1) (⟨0, Nat.one_pos⟩ : Fin 1)

section OperandIndex
variable {w : Nat} (wf : GatherDims.WF Stack Starts Windows [2, 3, 4] [0] [] [0] [] 2 ![1, 128, 128, 3])
  (idx : IVec Starts w) (j : Windows.Idx)

/-- On the frame axis the operand index is the clamped start index: no batch coordinate, no offset (the axis is
    collapsed). -/
theorem operand_frame :
    (frameDims wf).start j idx 0 + (frameDims wf).batchCoord j 0 + (frameDims wf).offCoord j 0
      = min (idx (startAt j)).toInt.toNat 143 := by
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 4) ∈ (frameDims wf).startIndexMap from List.mem_singleton.mpr rfl)]
  have hsi : (frameDims wf).siIdx j ⟨List.idxOf (0 : Fin 4) (frameDims wf).startIndexMap,
      List.idxOf_lt_length_iff.2 (List.mem_singleton.mpr rfl)⟩ = startAt j := by
    funext b; refine Fin.ext ?_
    match b with
    | ⟨0, _⟩ => rfl
    | ⟨1, _⟩ => rfl
    | ⟨2, _⟩ => rfl
  rw [hsi]
  rfl

/-- On the row axis it is the result's row coordinate: the start is 0 (the axis is not indexed). -/
theorem operand_row :
    (frameDims wf).start j idx 1 + (frameDims wf).batchCoord j 1 + (frameDims wf).offCoord j 1 = (j 2).val := by
  rw [GatherDims.batchCoord_eq_zero _ _ _ List.not_mem_nil, Nat.add_zero]
  have hs : (frameDims wf).start j idx 1 = 0 := by
    unfold GatherDims.start; rw [dif_neg (show (1 : Fin 4) ∉ [(0 : Fin 4)] from by decide)]
  rw [hs, Nat.zero_add]
  unfold GatherDims.offCoord
  rw [dif_pos (show (1 : Fin 4) ∈ Stack.kept ([(0 : Fin 4)] ++ []) from by decide)]
  rfl

/-- On the width axis, the result's width coordinate. -/
theorem operand_width :
    (frameDims wf).start j idx 2 + (frameDims wf).batchCoord j 2 + (frameDims wf).offCoord j 2 = (j 3).val := by
  rw [GatherDims.batchCoord_eq_zero _ _ _ List.not_mem_nil, Nat.add_zero]
  have hs : (frameDims wf).start j idx 2 = 0 := by
    unfold GatherDims.start; rw [dif_neg (show (2 : Fin 4) ∉ [(0 : Fin 4)] from by decide)]
  rw [hs, Nat.zero_add]
  unfold GatherDims.offCoord
  rw [dif_pos (show (2 : Fin 4) ∈ Stack.kept ([(0 : Fin 4)] ++ []) from by decide)]
  rfl

/-- On the channel axis, the result's channel coordinate. -/
theorem operand_channel :
    (frameDims wf).start j idx 3 + (frameDims wf).batchCoord j 3 + (frameDims wf).offCoord j 3 = (j 4).val := by
  rw [GatherDims.batchCoord_eq_zero _ _ _ List.not_mem_nil, Nat.add_zero]
  have hs : (frameDims wf).start j idx 3 = 0 := by
    unfold GatherDims.start; rw [dif_neg (show (3 : Fin 4) ∉ [(0 : Fin 4)] from by decide)]
  rw [hs, Nat.zero_add]
  unfold GatherDims.offCoord
  rw [dif_pos (show (3 : Fin 4) ∈ Stack.kept ([(0 : Fin 4)] ++ []) from by decide)]
  rfl

end OperandIndex

/-- THE GATHER READ AT `(i, k, h, w, c)`: the stack at the frame the start index `idx (i, k, 0)` names, read signed and
    clamped into `[0, 143]`, and at `(h, w, c)` in that frame. -/
theorem gather_frames_apply {w : Nat} (wf : GatherDims.WF Stack Starts Windows [2, 3, 4] [0] [] [0] [] 2 ![1, 128, 128, 3])
    (x : Stack.Idx → α) (idx : IVec Starts w) (j : Windows.Idx) :
    Host.gather (frameDims wf) x idx j
      = x (ix4 (⟨min (idx (startAt j)).toInt.toNat 143, by omega⟩ : Fin 144) (j 2) (j 3) (j 4)) := by
  unfold Host.gather
  refine congrArg x (funext fun a => Fin.ext ?_)
  match a with
  | ⟨0, _⟩ => exact operand_frame wf idx j
  | ⟨1, _⟩ => exact operand_row wf idx j
  | ⟨2, _⟩ => exact operand_width wf idx j
  | ⟨3, _⟩ => exact operand_channel wf idx j

/-! ## The start indices as words -/

/-- The start index of frame `k` of window `i`, as the reference computes it in 32-bit words: `(i + 1) + k`, to which
    144 is added if it is negative. It is the word of `i + 1 + k`: the sum is below 144, far from the sign bit. -/
theorem start_word (i : Fin 128) (k : Fin 16) :
    Scalar.select (IntOp.cmpi .slt (IntOp.addi (IntOp.addi (BitVec.ofNat 32 i.val) 1#32) (BitVec.ofNat 32 k.val)) 0#32)
        (IntOp.addi (IntOp.addi (IntOp.addi (BitVec.ofNat 32 i.val) 1#32) (BitVec.ofNat 32 k.val)) 144#32)
        (IntOp.addi (IntOp.addi (BitVec.ofNat 32 i.val) 1#32) (BitVec.ofNat 32 k.val))
      = BitVec.ofNat 32 (i.val + 1 + k.val) := by
  have hi := i.isLt
  have hk := k.isLt
  have hv : IntOp.addi (IntOp.addi (BitVec.ofNat 32 i.val) 1#32) (BitVec.ofNat 32 k.val) = BitVec.ofNat 32 (i.val + 1 + k.val) := by
    unfold IntOp.addi
    apply BitVec.eq_of_toNat_eq
    simp only [BitVec.toNat_add, BitVec.toNat_ofNat]
    omega
  rw [hv]
  have hn : ¬ IntOp.cmpi .slt (BitVec.ofNat 32 (i.val + 1 + k.val)) 0#32 = 1#1 := by
    rw [StableHlo.Predicate.slt_iff_toNat (by simp only [BitVec.toNat_ofNat]; omega) (by decide)]
    simp
  rw [eq_zero_of_ne_one hn, select_zero]

/-- Read signed and clamped into `[0, 143]`, the word of `i + 1 + k` is `i + 1 + k`. -/
theorem start_clamped (i : Fin 128) (k : Fin 16) :
    min (BitVec.ofNat 32 (i.val + 1 + k.val)).toInt.toNat 143 = i.val + 1 + k.val := by
  have hi := i.isLt
  have hk := k.isLt
  rw [StableHlo.Predicate.toInt_ofNat_small _ (by omega)]
  omega

end Cert.Sliding

end
-- ==== Proof.Reference.lean ====
/-
  The reference's result is the sliding window of the stack.

  The reference joins the buffer and the inputs into the stack of 144 frames, builds the start indices
  `i + 1 + k` (an iota down the windows plus one, plus an iota along a window, in 32-bit words; a negative index would have
  144 added, none is), and gathers one frame per start index. Read at an index, the gather is the stack at frame
  `i + 1 + k`: the specification `Cert.Sliding.slide` of the stack.
-/
import proofs.«425659_j86784109183359_3_alg».proof.Proof.Gen.ReferenceIdeal.Read
import proofs.«425659_j86784109183359_3_alg».proof.Proof.Sliding

noncomputable section

namespace Cert.ReferenceIdeal.Window

open Cert.ReferenceIdeal Cert.ReferenceIdeal.Gen Cert.ReferenceIdeal.Read Cert.Sliding
open Idealize.ShloMosaic Idealize.ShloMosaic.ValueIdx

variable {F : FTy → Type} [FloatOps F]

/-- The start index the reference computes for frame `k` of window `i` is the word of `i + 1 + k`. -/
theorem starts_apply (j : Windows.Idx) :
    val_main_v15 (F := F) (startAt j) = BitVec.ofNat 32 ((j 0).val + 1 + (j 1).val) := by
  rw [val_main_v15_apply, val_main_v14_apply, val_main_v11_apply, val_main_v13_apply, val_main_v9_apply,
    val_main_v7_apply, val_main_v8_apply, val_main_v4_apply, val_main_v6_apply, val_main_v2_apply, val_main_v3_apply,
    val_main_v1_apply, val_main_v5_apply, val_main_c_apply, val_main_v10_apply, val_main_c_0_apply, val_main_v12_apply,
    val_main_c_1_apply]
  exact start_word (j 0) (j 1)

/-- The reference's result, as a function of its two arguments, is the sliding window of their stack. -/
theorem result_eq (x0 : (⟨S128x128x128x3, .f32⟩ : BufTy).Contents (Elt F)) (x1 : (⟨S16x128x128x3, .f32⟩ : BufTy).Contents (Elt F)) :
    val_main_v16 (F := F) x0 x1 = slide (val_main_v0 (F := F) x0 x1) := by
  funext j
  unfold val_main_v16
  have hd : gather_S144x128x128x3_S128x16x1_S128x16x128x128x3_234_0_n_n_0_2_11281283
      = frameDims gather_S144x128x128x3_S128x16x1_S128x16x128x128x3_234_0_n_n_0_2_11281283_wf := rfl
  rw [hd]
  refine (gather_frames_apply _ (val_main_v0 (F := F) x0 x1) (val_main_v15 (F := F)) j).trans ?_
  unfold slide
  refine congrArg (fun f => val_main_v0 (F := F) x0 x1 (ix4 f (j 2) (j 3) (j 4))) (Fin.ext ?_)
  show min (val_main_v15 (F := F) (startAt j)).toInt.toNat 143 = (j 0).val + 1 + (j 1).val
  rw [starts_apply]
  exact start_clamped (j 0) (j 1)

end Cert.ReferenceIdeal.Window

end
-- ==== Proof.LaneWindows.lean ====
/-
  The kernel's result is the sliding window of the stack.

  The kernel joins the buffer and the inputs into the stack, re-lays it lane-dense (144 × 128 × 384), and keeps the whole
  lane-dense stack resident: the input window's block at every grid point is the whole array. At grid point `i` the body
  loads the 16 frames from `i + 1` on and stores them as block `i` of the 128 × 16 × 128 × 384 result, so after the 128
  points the result holds `Cert.Sliding.windowRows` of the lane-dense stack (each index lies in exactly the block of the
  point equal to its first coordinate). The last line re-lays the result with width and channel apart; by
  `Cert.Sliding.relaid_windows` that is `Cert.Sliding.slide` of the stack.
-/
import proofs.«425659_j86784109183359_3_alg».proof.Proof.Gen.KernelIdeal.Frame
import proofs.«425659_j86784109183359_3_alg».proof.Proof.Sliding
import Idealize.ShloMosaic.Lib.Pipeline.Value
import Idealize.ShloMosaic.Lib.StableHlo.Run
import Idealize.ShloMosaic.Lib.Tactic

noncomputable section

namespace Cert.KernelIdeal.Window

open Cert.KernelIdeal Cert.KernelIdeal.Gen Cert.Sliding
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The body at one grid point -/

theorem zero_offsets : (![0, 0, 0, 0] : Fin 4 → Nat) = fun _ => 0 := funext fun a => by fin_cases a <;> rfl

/-- What the body leaves in the output's staging buffer: the 16 frames it loaded, under a leading unit axis. -/
theorem out_eq (c : Dev nD) (i : grid0.Coords) (a1 : Memref sig .tc .vmem S144x128x384 .f32) (h1 : a1.IsWhole)
    (a2 : Memref sig .tc .vmem S1x16x128x384 .f32) (h2 : a2.IsWhole) (x : Vec F S144x128x384 .f32) :
    out0_A_1 c i a1 h1 a2 h2 x
      = k0_pay1 (View.ld x (Rect.unit (s := S144x128x384) (k0_off1 i) S16x128x384.size (k0_off1_inb i))) := by
  unfold out0_A_1
  rw [View.read_writes_eq_canon _ _ _ (cover0_A_1 c i a1 h1 a2 h2 x)]
  unfold kernelRun0_A
  dsimp only
  sl_unfold_words
  rw [View.canon_unit_zero zero_offsets]
  simp only [View.readAt_eq_ld, h1.read_unread]

/-- The load starts at frame `i + 1`: the 32-bit sum does not wrap, `i` being below 128. -/
theorem load_frame (i : grid0.Coords) : k0_off1 i 0 = (i 0).val + 1 := by
  have hi : (i 0).val < 128 := (i 0).isLt
  show (Scalar.indexCast (Scalar.addi (BitVec.ofNat 32 (i 0).val) 1#32)).toNat = _
  unfold Scalar.indexCast Scalar.addi IntOp.addi
  simp only [BitVec.toNat_add, BitVec.toNat_ofNat]
  omega

/-- The stored block at `(0, k, h, q)` is the loaded array at `(i + 1 + k, h, q)`. -/
theorem body_apply (i : grid0.Coords) (x : Vec F S144x128x384 .f32) (y : S1x16x128x384.Idx) :
    k0_pay1 (View.ld x (Rect.unit (s := S144x128x384) (k0_off1 i) S16x128x384.size (k0_off1_inb i))) y
      = x (ix3 (frameOf (i 0) (y 1)) (y 2) (y 3)) := by
  unfold k0_pay1
  dsimp only
  rw [shapeCast_self]
  refine (shapeCast_addUnit_apply ![16, 128, 384] _ _ y).trans ?_
  refine congrArg x (funext fun a => Fin.ext ?_)
  match a with
  | ⟨0, _⟩ =>
    show k0_off1 i 0 + 1 * (y 1).val = (i 0).val + 1 + (y 1).val
    rw [load_frame]; omega
  | ⟨1, _⟩ =>
    show 0 + 1 * (y 2).val = (y 2).val
    omega
  | ⟨2, _⟩ =>
    show 0 + 1 * (y 3).val = (y 3).val
    omega

/-! ## The blocks -/

/-- The printed index maps over the grid: the input window never moves, the output window's block index is the point. -/
theorem idx_facts : ∀ t : Fin cfg0.N,
    win0_0.index t (0 : Fin 3) = 0 ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0 ∧ (grid0.coords t 0).val = t.val :=
  (by decide +kernel : ∀ t : Fin grid0.N, _)

/-- The lane-dense stack as the region finds it. -/
abbrev rows (c : Dev nD) : Vec F S144x128x384 .f32 := V m c main_v1

/-- The input window's block at any point is the whole lane-dense stack. -/
theorem iblk_eq (c : Dev nD) (t : Fin cfg0.N) : (iblk m c 0 t : Vec F S144x128x384 .f32) = rows m c := by
  obtain ⟨e0, e1, e2, -⟩ := idx_facts t
  funext y
  unfold iblk
  rw [View.read_apply]
  show V m c main_v1 (((cfg0.win 0).blk t).view.emb y) = V m c main_v1 y
  refine congrArg (V m c main_v1) (funext fun a => Fin.ext ?_)
  match a with
  | ⟨0, _⟩ => show win0_0.index t (0 : Fin 3) * 144 + 1 * (y 0).val = (y 0).val; rw [e0]; omega
  | ⟨1, _⟩ => show win0_0.index t (1 : Fin 3) * 128 + 1 * (y 1).val = (y 1).val; rw [e1]; omega
  | ⟨2, _⟩ => show win0_0.index t (2 : Fin 3) * 384 + 1 * (y 2).val = (y 2).val; rw [e2]; omega

/-- WHAT POINT `t` WRITES BACK is block `t` of the windows of the lane-dense stack. -/
theorem flushed_eq (c : Dev nD) (t : Fin cfg0.N) :
    (dats m 0 c).flushed 1 t = ((cfg0.win 1).blk t).view.read (Elt F) (windowRows (rows m c)) := by
  show (cfg0.win 1).cut (grid0.coords t) ((dats m 0 c).after 1 t) = _
  rw [after0_1]
  unfold outsAt0
  rw [out_eq, iblk_eq]
  obtain ⟨-, -, -, e0, e1, e2, e3, ec⟩ := idx_facts t
  funext y
  show k0_pay1 (View.ld (rows m c) (Rect.unit (s := S144x128x384) (k0_off1 (grid0.coords t)) S16x128x384.size (k0_off1_inb _))) y
      = windowRows (rows m c) (((cfg0.win 1).blk t).view.emb y)
  refine (body_apply (grid0.coords t) (rows m c) y).trans ?_
  unfold windowRows
  refine congrArg (rows m c) (funext fun a => Fin.ext ?_)
  have hy : (y 0).val < 1 := (y 0).isLt
  match a with
  | ⟨0, _⟩ =>
    show (grid0.coords t 0).val + 1 + (y 1).val
      = (win0_1.index t (0 : Fin 4) * 1 + 1 * (y 0).val) + 1 + (win0_1.index t (1 : Fin 4) * 16 + 1 * (y 1).val)
    rw [e0, e1, ec]; omega
  | ⟨1, _⟩ => show (y 2).val = win0_1.index t (2 : Fin 4) * 128 + 1 * (y 2).val; rw [e2]; omega
  | ⟨2, _⟩ => show (y 3).val = win0_1.index t (3 : Fin 4) * 384 + 1 * (y 3).val; rw [e3]; omega

/-! ## The result array after the run -/

/-- An index of the result is in point `t`'s block iff each coordinate is in the block's range on its axis. -/
theorem mem_blk (t : Fin cfg0.N) (i : S128x16x128x384.Idx) :
    i ∈ ((cfg0.win 1).blk t).view.set ↔ ∀ a : Fin 4, win0_1.index t a * S1x16x128x384.size a ≤ (i a).val
      ∧ (i a).val < win0_1.index t a * S1x16x128x384.size a + S1x16x128x384.size a := by
  show i ∈ ((View.whole main_v2).slice (win0_1.rect t)).set ↔ _
  rw [View.set_slice_whole, Rect.mem_set_unit]
  exact Iff.rfl

/-- Every index of the result lies in the block of the point equal to its first coordinate. -/
theorem cover (i : S128x16x128x384.Idx) :
    ∃ t : Fin cfg0.N, (cfg0.win 1).flush t = true ∧ i ∈ ((cfg0.win 1).blk t).view.set := by
  have hN : cfg0.N = 128 := N_0
  have h0 : (i 0).val < 128 := (i 0).isLt
  have h1 : (i 1).val < 16 := (i 1).isLt
  have h2 : (i 2).val < 128 := (i 2).isLt
  have h3 : (i 3).val < 384 := (i 3).isLt
  obtain ⟨-, -, -, e0, e1, e2, e3, -⟩ := idx_facts ⟨(i 0).val, by rw [hN]; exact h0⟩
  refine ⟨⟨(i 0).val, by rw [hN]; exact h0⟩, flush0_1 _, ?_⟩
  rw [mem_blk]
  intro a
  match a with
  | ⟨0, _⟩ =>
    show win0_1.index _ (0 : Fin 4) * 1 ≤ (i 0).val ∧ (i 0).val < win0_1.index _ (0 : Fin 4) * 1 + 1
    rw [e0]; dsimp only; omega
  | ⟨1, _⟩ =>
    show win0_1.index _ (1 : Fin 4) * 16 ≤ (i 1).val ∧ (i 1).val < win0_1.index _ (1 : Fin 4) * 16 + 16
    rw [e1]; omega
  | ⟨2, _⟩ =>
    show win0_1.index _ (2 : Fin 4) * 128 ≤ (i 2).val ∧ (i 2).val < win0_1.index _ (2 : Fin 4) * 128 + 128
    rw [e2]; omega
  | ⟨3, _⟩ =>
    show win0_1.index _ (3 : Fin 4) * 384 ≤ (i 3).val ∧ (i 3).val < win0_1.index _ (3 : Fin 4) * 384 + 384
    rw [e3]; omega

/-- THE RESULT ARRAY after the run: the windows of the lane-dense stack. -/
theorem final_rows (c : Dev nD) : (dats m 0 c).arrAt 1 cfg0.N = windowRows (rows m c) :=
  (dats m 0 c).arrAt_eq_of_cover 1 (windowRows (rows m c)) (fun t _ => flushed_eq m c t) cover

/-! ## The lines around the region -/

/-- The stack: the buffer's 16 frames, then the 128 input frames. -/
abbrev stack (c : Dev nD) : Vec F S144x128x128x3 .f32 :=
  concatenate S144x128x128x3 0 [⟨S16x128x128x3, m ((c : Thread nD τ).loc main_arg1)⟩, ⟨S128x128x128x3, m ((c : Thread nD τ).loc main_arg0)⟩]
    concatenates_S16x128x128x3_S128x128x128x3_S144x128x128x3_d0

/-- The region finds the stack re-laid lane-dense. -/
theorem rows_eq (c : Dev nD) : rows m c = shapeCast S144x128x384 (stack m c) shapeCasts_S144x128x128x3_S144x128x384 := by
  show StableHlo.after hostOps0 (fun b => m (c, b)) (Proc.devRef .tc main_v1) = _
  after_results
  rfl

/-- The last line re-lays the result array with width and channel apart: the sliding window of the stack. -/
theorem result_eq (c : Dev nD) :
    Pipeline.afterTail₀ cfgs (dats m) 0 (V0 m) [hostOps1] c main_v3 = slide (stack m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = windowRows (rows m c) :=
    (Pipeline.withArrays_arr spec0 launch0.win.arr_inj c _ _ 1).trans (final_rows m c)
  show shapeCast S128x16x128x128x3
      (Pipeline.withArrays (cfgs 0).spec c (V0 m c) (fun w => (dats m 0 c).arrAt w (cfgs 0).N) (Proc.devRef .tc main_v2))
      shapeCasts_S128x16x128x384_S128x16x128x128x3 = _
  rw [hw, rows_eq]
  exact relaid_windows _ _ _

/-! ## The run, read -/

/-- Every weakly fair execution of the kernel's program terminates with the result at the sliding window of the stack of
    its two arguments, and the arguments unchanged. -/
theorem run : θ_run defs (onTc (τ := τ) (main (F := F))) ⟨m, fun _ => 0, ρ⟩ fun r => ∀ c : Dev nD,
      r.2.mem ((c.tc : Thread nD τ).loc main_v3) = slide (stack m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Window

end
-- ==== Proof.lean ====
/-
  A sliding window over a stack of frames, by a resident lane-dense copy against a gather.

  Both programs join the buffer (16 frames of 128 × 128 × 3) and the inputs (128 such frames) into one stack of 144 frames,
  and both return, for each of 128 windows, the 16 consecutive frames `i + 1, …, i + 16` of the stack: entry
  `(i, k, h, w, c)` of the result is entry `(i + 1 + k, h, w, c)` of the stack (`Cert.Sliding.slide`). No arithmetic is done on
  the values, so the two results are equal entry by entry over any values, infinite ones included, and the precondition
  is never opened.

  * The kernel (Proof/LaneWindows.lean) re-lays the stack as 144 × 128 × 384, keeps it whole in every grid point's input
    block, copies frames `i + 1 … i + 16` into block `i` of a 128 × 16 × 128 × 384 result, and re-lays that as
    128 × 16 × 128 × 128 × 3: the two re-layings keep row-major positions and cancel.
  * The reference (Proof/Reference.lean) gathers frame `i + 1 + k` for each `(i, k)`, the start indices computed in 32-bit
    words far from the sign bit and inside `[0, 143]`, so neither the negative-index wrap nor the gather's clamp acts.
  * The frames of the two kernel programs are their runs with the result forgotten; the reference's frame is its run with
    the result forgotten; the idealization rewrote nothing.
-/
import proofs.«425659_j86784109183359_3_alg».proof.Defs
import proofs.«425659_j86784109183359_3_alg».proof.Proof.Gen.Kernel
import proofs.«425659_j86784109183359_3_alg».proof.Proof.Gen.Kernel.Skeleton
import proofs.«425659_j86784109183359_3_alg».proof.Proof.Gen.Kernel.Launch
import proofs.«425659_j86784109183359_3_alg».proof.Proof.Gen.Kernel.Points
import proofs.«425659_j86784109183359_3_alg».proof.Proof.Gen.Kernel.Frame
import proofs.«425659_j86784109183359_3_alg».proof.Proof.Gen.KernelIdeal
import proofs.«425659_j86784109183359_3_alg».proof.Proof.Gen.KernelIdeal.Skeleton
import proofs.«425659_j86784109183359_3_alg».proof.Proof.Gen.KernelIdeal.Launch
import proofs.«425659_j86784109183359_3_alg».proof.Proof.Gen.KernelIdeal.Points
import proofs.«425659_j86784109183359_3_alg».proof.Proof.Gen.KernelIdeal.Frame
import proofs.«425659_j86784109183359_3_alg».proof.Proof.Gen.ReferenceIdeal
import proofs.«425659_j86784109183359_3_alg».proof.Proof.Gen.ReferenceIdeal.Run
import proofs.«425659_j86784109183359_3_alg».proof.Proof.Gen.ReferenceIdeal.Read
import proofs.«425659_j86784109183359_3_alg».proof.Proof.Gen.Pre_finite_inputs
import proofs.«425659_j86784109183359_3_alg».proof.Proof.Sliding
import proofs.«425659_j86784109183359_3_alg».proof.Proof.Reference
import proofs.«425659_j86784109183359_3_alg».proof.Proof.LaneWindows
import Idealize.ShloMosaic.Adequacy
import Idealize.ShloMosaic.Init

noncomputable section

namespace Cert.Proof

open Idealize.ShloMosaic Idealize.SL.Sem

/-- The word-level kernel runs and leaves its arguments as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernelIdeal : @Cert.frame_KernelIdeal Cert.KernelIdeal.Gen.facts Cert.Pre_finite_inputs.Gen.facts :=
  fun m ρ _ => Cert.KernelIdeal.Gen.frame m ρ

/-- The reference runs and leaves its arguments as they were: its run, the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the two arguments, both programs end at the sliding window of the same stack. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Sliding.slide (Cert.KernelIdeal.Window.stack m c), Cert.KernelIdeal.Window.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v16_eq _ _).trans (Cert.ReferenceIdeal.Window.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
